-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S1024x1024 .f32 .bf16
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x64x64 : Shape := ⟨4, ![8, 1024, 64, 64]⟩
abbrev S_ : Shape := ⟨0, ![]⟩

class Facts : Prop where
  bcast_S_S8x1024x64x64 : S_.BroadcastsInDim S8x1024x64x64 (![] : Fin 0 → Fin S8x1024x64x64.rank)
  reducesTo_S8x1024x64x64_S_d0_1_2_3 : S8x1024x64x64.ReducesTo [0, 1, 2, 3] S_
  h_S_ : 0 < S_.numel

variable [Facts]

def fn {F : FTy → Type} [FloatOps F] (main_arg0 : FVec F S8x1024x64x64 .f32) : IVec S_ 1 :=
  let main_v0 : FVec F S8x1024x64x64 .f32 := Host.absf main_arg0
  let main_cst : FVec F S_ .f32 := constant S_ .f32 0x7F800000#32
  let main_v1 : FVec F S8x1024x64x64 .f32 := broadcastInDim S8x1024x64x64 ![] bcast_S_S8x1024x64x64 main_cst
  let main_v2 : IVec S8x1024x64x64 1 := cmpf .olt main_v0 main_v1
  let main_c : IVec S_ 1 := constantI S_ 1 1#1
  let main_v3 : IVec S_ 1 := (fun x v => Host.reduce IntOp.andi x v reducesTo_S8x1024x64x64_S_d0_1_2_3 h_S_) main_v2 main_c
  main_v3
-- ==== Kernel.lean ====
abbrev S8x1024x64x64 : Shape := ⟨4, ![8, 1024, 64, 64]⟩
abbrev S8x1024x4096 : Shape := ⟨3, ![8, 1024, 4096]⟩
abbrev S8x1024x1 : Shape := ⟨3, ![8, 1024, 1]⟩
abbrev S1x1024x1024 : Shape := ⟨3, ![1, 1024, 1024]⟩
abbrev S1x1024x1 : Shape := ⟨3, ![1, 1024, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8x1024x64x64, .f32⟩
  | .hbm, ⟨1, _⟩ => ⟨S8x1024x4096, .f32⟩
  | .hbm, ⟨2, _⟩ => ⟨S8x1024x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1, .f32⟩
  | .local _ .vmem, ⟨3, _⟩ => ⟨S1x1024x1, .f32⟩
  | .local _ .vmem, ⟨4, _⟩ => ⟨S1024x1024, .f32⟩
  | .local _ .vmem, ⟨5, _⟩ => ⟨S1024x1, .f32⟩
  | _, _ => ⟨S8x1024x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8x1024x64x64_S8x1024x4096 : S8x1024x64x64.ShapeCasts S8x1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S8x1024x1_S_d0_1_2 : S8x1024x1.ReducesTo [0, 1, 2] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x4096.size a
  hwx0_0 : ∀ i : grid0.Coords, EltTy.bits .f32 = 32 ∨ (Rect.block (s := S8x1024x4096) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S8x1024x1.size a
  hwx0_1 : ∀ i : grid0.Coords, EltTy.bits .f32 = 32 ∨ (Rect.block (s := S8x1024x1) S1x1024x1.size (cc0_transform_1 i) (hinb0_1 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x1024x64x64 : Shape := ⟨4, ![8, 1024, 64, 64]⟩
abbrev S8x1024x4096 : Shape := ⟨3, ![8, 1024, 4096]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1024 : Shape := ⟨1, ![1024]⟩
abbrev S1024x1 : Shape := ⟨2, ![1024, 1]⟩
abbrev S1024x2 : Shape := ⟨2, ![1024, 2]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x64x64, .f32⟩
  | .hbm, ⟨1, _⟩ => ⟨S8x1024x4096, .f32⟩
  | .hbm, ⟨2, _⟩ => ⟨S8x1024x1024, .f32⟩
  | .hbm, ⟨3, _⟩ => ⟨S_, .f32⟩
  | .hbm, ⟨4, _⟩ => ⟨S8x1024x1024, .f32⟩
  | .hbm, ⟨5, _⟩ => ⟨S8x1024x1024, .f32⟩
  | .hbm, ⟨6, _⟩ => ⟨S_, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024x1, .f32⟩
  | .hbm, ⟨12, _⟩ => ⟨S8x1024x1024, .f32⟩
  | .hbm, ⟨13, _⟩ => ⟨S8x1024x1024, .f32⟩
  | .hbm, ⟨14, _⟩ => ⟨S8x1024x1024, .f32⟩
  | .hbm, ⟨15, _⟩ => ⟨S_, .f32⟩
  | .hbm, ⟨16, _⟩ => ⟨S8x1024, .f32⟩
  | .hbm, ⟨17, _⟩ => ⟨S8x1024x1, .f32⟩
  | .hbm, ⟨18, _⟩ => ⟨S8x1024x1024, .f32⟩
  | .hbm, ⟨19, _⟩ => ⟨S8x1024x1024, .f32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x1, .i32⟩
  | .hbm, ⟨38, _⟩ => ⟨S1024x2, .i32⟩
  | .hbm, ⟨39, _⟩ => ⟨S8x1024, .f32⟩
  | .hbm, ⟨40, _⟩ => ⟨S_, .f32⟩
  | .hbm, ⟨41, _⟩ => ⟨S8x1024, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_c : Ref sig .tc := ⟨.hbm, 22, rfl⟩
abbrev main_call0_v2 : Ref sig .tc := ⟨.hbm, 23, rfl⟩
abbrev main_call0_v3 : Ref sig .tc := ⟨.hbm, 24, rfl⟩
abbrev main_call0_c_0 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_c_1 : Ref sig .tc := ⟨.hbm, 29, rfl⟩
abbrev main_call0_v7 : Ref sig .tc := ⟨.hbm, 30, rfl⟩
abbrev main_call0_v8 : Ref sig .tc := ⟨.hbm, 31, rfl⟩
abbrev main_call0_c_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩

abbrev nD : Nat := 1
abbrev τ : Topo := Topo.v7x

variable {F : FTy → Type} [FloatOps F]

class Facts₀ : Prop where
  shapeCasts_S8x1024x64x64_S8x1024x4096 : S8x1024x64x64.ShapeCasts S8x1024x4096
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S8x1024_S_d0_1 : S8x1024.ReducesTo [0, 1] S_
  dot_S8x1024x4096_S8x1024x4096_S8x1024x1024_2_2_1_1_0_0_wf : DotDims.WF S8x1024x4096 S8x1024x4096 S8x1024x1024 [2] [2] [1] [1] [0] [0]
  gather_S8x1024x1024_S1024x2_S8x1024_0_12_n_n_12_1_811_wf : GatherDims.WF S8x1024x1024 S1024x2 S8x1024 [0] [1, 2] [] [1, 2] [] 1 ![8, 1, 1]

variable [Facts₀]

def dot_S8x1024x4096_S8x1024x4096_S8x1024x1024_2_2_1_1_0_0 : DotDims S8x1024x4096 S8x1024x4096 S8x1024x1024 where
  lhsContracting := [2]
  rhsContracting := [2]
  lhsNonContracting := [1]
  rhsNonContracting := [1]
  lhsBatch := [0]
  rhsBatch := [0]
  wf := dot_S8x1024x4096_S8x1024x4096_S8x1024x1024_2_2_1_1_0_0_wf
def gather_S8x1024x1024_S1024x2_S8x1024_0_12_n_n_12_1_811 : GatherDims S8x1024x1024 S1024x2 S8x1024 where
  offsetDims := [0]
  collapsedSliceDims := [1, 2]
  operandBatchingDims := []
  startIndicesBatchingDims := []
  startIndexMap := [1, 2]
  indexVectorDim := 1
  sliceSizes := ![8, 1, 1]
  wf := gather_S8x1024x1024_S1024x2_S8x1024_0_12_n_n_12_1_811_wf

class Facts : Prop extends Facts₀ where

variable [Facts]
-- ==== Proof.KernelPieces.lean ====
/-
  What one grid step of the kernel leaves behind, as values.

  The body has three behaviours.  At the first step of a batch it resets the running matrix and the running energies to
  zero and then adds the step's contribution; at the two middle steps it only adds; at the last step it adds and then
  writes the batch's column of row losses, computed from the matrix and energies it has just finished.  Each lemma
  below says that the contents a behaviour leaves in a buffer are the body's arithmetic applied to what the step read:
  the slice `x0`, and the matrix `xs0` and energies `xs1` left by the step before (zero after a reset).
-/
import proofs.«427626_j27633819582907_3_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the matrix it found plus the slice's row products. -/
theorem sout_B_0 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : ¬cond0_0 i) (hc1 : ¬cond0_1 i) (x0 : Vec F S1x1024x1024 .f32) (xs0 : Vec F S1024x1024 .f32) (xs1 : Vec F S1024x1 .f32) :
    sout0_B_0 c i a2 h2 a3 h3 a4 h4 a5 h5 hc0 hc1 x0 xs0 xs1 = k0_pay4 x0 xs0 := by
  unfold sout0_B_0
  rw [View.read_writes_eq_canon _ _ _ (scover0_B_0 c i a2 h2 a3 h3 a4 h4 a5 h5 hc0 hc1 x0 xs0 xs1)]
  unfold kernelRun0_B
  dsimp only
  rw [View.canon_unit_zero hz2]
  simp only [View.readAt_eq_ld, h2.read_unread, h4.read_unread, View.ld_unit_zero (S := S1x1024x1024) hz3,
    View.ld_unit_zero (S := S1024x1024) hz2]

/-- A middle step leaves the energies it found plus the slice's row sums of squares. -/
theorem sout_B_1 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : ¬cond0_0 i) (hc1 : ¬cond0_1 i) (x0 : Vec F S1x1024x1024 .f32) (xs0 : Vec F S1024x1024 .f32) (xs1 : Vec F S1024x1 .f32) :
    sout0_B_1 c i a2 h2 a3 h3 a4 h4 a5 h5 hc0 hc1 x0 xs0 xs1 = k0_pay5 x0 xs1 := by
  unfold sout0_B_1
  rw [View.read_writes_eq_canon _ _ _ (scover0_B_1 c i a2 h2 a3 h3 a4 h4 a5 h5 hc0 hc1 x0 xs0 xs1)]
  unfold kernelRun0_B
  dsimp only
  rw [View.canon_unit_zero hz2]
  simp only [View.readAt_eq_ld, h2.read_unread, h5.read_unread, View.ld_unit_zero (S := S1x1024x1024) hz3,
    View.ld_unit_zero (S := S1024x1) hz2]

/-- The last step of a batch leaves the matrix it found plus the slice's row products. -/
theorem sout_C_0 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : ¬cond0_0 i) (hc1 : cond0_1 i) (x0 : Vec F S1x1024x1024 .f32) (xs0 : Vec F S1024x1024 .f32) (xs1 : Vec F S1024x1 .f32) :
    sout0_C_0 c i a2 h2 a3 h3 a4 h4 a5 h5 hc0 hc1 x0 xs0 xs1 = k0_pay4 x0 xs0 := by
  unfold sout0_C_0
  rw [View.read_writes_eq_canon _ _ _ (scover0_C_0 c i a2 h2 a3 h3 a4 h4 a5 h5 hc0 hc1 x0 xs0 xs1)]
  unfold kernelRun0_C
  dsimp only
  sl_unfold_words
  rw [View.canon_unit_zero hz2]
  simp only [View.readAt_eq_ld, h2.read_unread, h4.read_unread, View.ld_unit_zero (S := S1x1024x1024) hz3,
    View.ld_unit_zero (S := S1024x1024) hz2]

/-- The last step of a batch leaves the energies it found plus the slice's row sums of squares. -/
theorem sout_C_1 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : ¬cond0_0 i) (hc1 : cond0_1 i) (x0 : Vec F S1x1024x1024 .f32) (xs0 : Vec F S1024x1024 .f32) (xs1 : Vec F S1024x1 .f32) :
    sout0_C_1 c i a2 h2 a3 h3 a4 h4 a5 h5 hc0 hc1 x0 xs0 xs1 = k0_pay5 x0 xs1 := by
  unfold sout0_C_1
  rw [View.read_writes_eq_canon _ _ _ (scover0_C_1 c i a2 h2 a3 h3 a4 h4 a5 h5 hc0 hc1 x0 xs0 xs1)]
  unfold kernelRun0_C
  dsimp only
  sl_unfold_words
  rw [View.canon_unit_zero hz2]
  simp only [View.readAt_eq_ld, h2.read_unread, h5.read_unread, View.ld_unit_zero (S := S1x1024x1024) hz3,
    View.ld_unit_zero (S := S1024x1) hz2]

/-- The last step of a batch writes the row losses of the matrix and energies it has just finished. -/
theorem out_C_1 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : ¬cond0_0 i) (hc1 : cond0_1 i) (x0 : Vec F S1x1024x1024 .f32) (xs0 : Vec F S1024x1024 .f32) (xs1 : Vec F S1024x1 .f32) :
    out0_C_1 c i a2 h2 a3 h3 a4 h4 a5 h5 hc0 hc1 x0 xs0 xs1 = k0_pay6 (k0_pay4 x0 xs0) (k0_pay5 x0 xs1) := by
  unfold out0_C_1
  rw [View.read_writes_eq_canon _ _ _ (cover0_C_1 c i a2 h2 a3 h3 a4 h4 a5 h5 hc0 hc1 x0 xs0 xs1)]
  unfold kernelRun0_C
  dsimp only
  sl_unfold_words
  rw [View.canon_unit_zero hz3]
  simp only [View.readCov_unit_zero (S := S1024x1024) _ hz2, View.readCov_unit_zero (S := S1024x1) _ hz2,
    View.readAt_eq_ld, h2.read_unread, h4.read_unread, h5.read_unread, View.ld_unit_zero (S := S1x1024x1024) hz3,
    View.ld_unit_zero (S := S1024x1024) hz2, View.ld_unit_zero (S := S1024x1) hz2]

/-- The first step of a batch resets the matrix to zero and leaves the slice's row products added to that zero. -/
theorem sout_A_0 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : cond0_0 i) (hc1 : ¬cond0_1 i) (x0 : Vec F S1x1024x1024 .f32) :
    sout0_A_0 c i a2 h2 a3 h3 a4 h4 a5 h5 hc0 hc1 x0 = k0_pay4 x0 k0_pay1 := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S1024x1024) hz2, View.readCov_unit_zero (S := S1024x1024) _ hz2]
  simp only [View.readAt_eq_ld, h2.read_unread, View.ld_unit_zero (S := S1x1024x1024) hz3]

/-- The first step of a batch resets the energies to zero and leaves the slice's row sums of squares added to that zero. -/
theorem sout_A_1 (c : Dev nD) (i : grid0.Coords) (a2 : Memref sig .tc .vmem S1x1024x1024 .f32) (h2 : a2.IsWhole)
    (a3 : Memref sig .tc .vmem S1x1024x1 .f32) (h3 : a3.IsWhole) (a4 : Memref sig .tc .vmem S1024x1024 .f32) (h4 : a4.IsWhole)
    (a5 : Memref sig .tc .vmem S1024x1 .f32) (h5 : a5.IsWhole)
    (hc0 : cond0_0 i) (hc1 : ¬cond0_1 i) (x0 : Vec F S1x1024x1024 .f32) :
    sout0_A_1 c i a2 h2 a3 h3 a4 h4 a5 h5 hc0 hc1 x0 = k0_pay5 x0 k0_pay2 := by
  unfold sout0_A_1
  rw [View.read_writes_eq_canon _ _ _ (scover0_A_1 c i a2 h2 a3 h3 a4 h4 a5 h5 hc0 hc1 x0)]
  unfold kernelRun0_A
  dsimp only
  sl_unfold_words
  rw [View.canon_cons_unit_zero (S := S1024x1) hz2, View.readCov_unit_zero (S := S1024x1) _ hz2]
  simp only [View.readAt_eq_ld, h2.read_unread, View.ld_unit_zero (S := S1x1024x1024) hz3]

end Cert.KernelIdeal.KValue

end
-- ==== Proof.Spec.lean ====
/-
  The quantity both programs compute, written once over the extended reals.

  The input is read as an array `X` of shape [8, 1024, 4096] (batch, channel, position).  For a batch `b` the Gram matrix
  of the channels is `gram X b c d = ∑ₙ X[b,c,n] · X[b,d,n]`.  Row `c` of that matrix, scaled by the inverse temperature,
  is a vector of logits; its softmax is taken with the row maximum subtracted, and the loss of the row is minus the
  logarithm of the DIAGONAL entry of the softmax plus a small constant.  The result is the mean of the 8 · 1024 row losses.

  `rowLoss g q` is written over an arbitrary row `g` and an arbitrary diagonal energy `q`, because one of the two programs
  accumulates the diagonal `∑ₙ X[b,c,n]²` apart from the matrix; `loss` instantiates it at `q = g c`.
-/
import Idealize.ShloMosaic.PureOps.Ideal
import Idealize.ShloMosaic.PureOps.Ideal.Laws
import Idealize.ShloMosaic.Lib.ValueIdx
import Mathlib.Algebra.BigOperators.Fin

noncomputable section

namespace Cert.Decorr

open Idealize.ShloMosaic Idealize.ShloMosaic.ValueIdx

/-- The inverse temperature: the exact reciprocal of the binary32 number nearest to 0.2, which is 13421773 / 2²⁶. -/
def invT : EReal := ((67108864 / 13421773 : ℝ) : EReal)

/-- The constant added under the logarithm: the binary32 number nearest to 1e-10. -/
def eps : EReal := Ideal.ofBits .f32 0x2EDBE6FF#32

/-- The number of rows the mean is taken over, 8 · 1024 = 8192, as its binary32 word. -/
def count : EReal := Ideal.ofBits .f32 0x46000000#32

/-- The largest scaled logit of a row (the maximum over an empty start value `⊥`). -/
def rowMax (g : Fin 1024 → EReal) : EReal :=
  (Finset.univ : Finset (Fin 1024)).fold max ⊥ (fun d => g d * invT)

/-- The normaliser of a row's softmax, with the row maximum subtracted inside the exponential. -/
def rowSum (g : Fin 1024 → EReal) : EReal :=
  ∑ d : Fin 1024, Ideal.exp (g d * invT - rowMax g)

/-- The loss of one row with logits `g` and diagonal energy `q`: `-log (exp (q/T − max) / ∑ exp (g/T − max) + ε)`,
    the sign written as a subtraction from zero. -/
def rowLoss (g : Fin 1024 → EReal) (q : EReal) : EReal :=
  0 - Ideal.log (Ideal.div (Ideal.exp (q * invT - rowMax g)) (rowSum g) + eps)

/-- The shape the input is read at: [8, 1024, 4096]. -/
abbrev S3 : Shape := ⟨3, ![8, 1024, 4096]⟩

/-- The Gram matrix of batch `b`: channel `c` against channel `d`, summed over the 4096 positions. -/
def gram (X : S3.Idx → EReal) (b : Fin 8) (c d : Fin 1024) : EReal :=
  ∑ n : Fin 4096, X (ix3 b c n) * X (ix3 b d n)

/-- The loss of row `c` of batch `b`. -/
def loss (X : S3.Idx → EReal) (b : Fin 8) (c : Fin 1024) : EReal :=
  rowLoss (gram X b c) (gram X b c c)

/-- The mean loss: zero plus the sum of all row losses, divided by their number. -/
def total (X : S3.Idx → EReal) : EReal :=
  Ideal.div (0 + ∑ b : Fin 8, ∑ c : Fin 1024, loss X b c) count

/-! ## The words the two programs spell, as extended reals -/

/-- The binary32 word `0xFF800000` is `-∞`. -/
theorem ofBits_neg_inf : Ideal.ofBits .f32 0xFF800000#32 = ⊥ := by
  simp [Ideal.ofBits, Ideal.ieee]

/-- The binary32 word nearest to 0.2 is the rational 13421773 / 2²⁶. -/
theorem ofBits_temperature : Ideal.ofBits .f32 0x3E4CCCCD#32 = ((13421773 / 67108864 : ℝ) : EReal) := by
  simp [Ideal.ofBits, Ideal.ieee, -EReal.coe_mul]; norm_num

/-- Dividing by the temperature is multiplying by its exact reciprocal, on every extended real. -/
theorem div_temperature (a : EReal) : Ideal.div a (Ideal.ofBits .f32 0x3E4CCCCD#32) = a * invT := by
  rw [ofBits_temperature, Ideal.div_coe (by norm_num : (13421773 / 67108864 : ℝ) ≠ 0)]
  unfold invT
  congr 2
  norm_num

/-- Subtracting from zero is negating, on every extended real. -/
theorem zero_sub_eq_neg (y : EReal) : 0 - y = -y := by
  rw [sub_eq_add_neg, zero_add]

/-! ## Sums regrouped -/

/-- A sum over 4096 positions is the sum of its four consecutive chunks of 1024, added in order onto zero: addition of
    extended reals is commutative and associative, so no finiteness is needed. -/
theorem sum_chunks (f : Fin 4096 → EReal) :
    (((0 + ∑ n : Fin 1024, f ⟨0 * 1024 + n.val, by omega⟩) + ∑ n : Fin 1024, f ⟨1 * 1024 + n.val, by omega⟩)
        + ∑ n : Fin 1024, f ⟨2 * 1024 + n.val, by omega⟩) + ∑ n : Fin 1024, f ⟨3 * 1024 + n.val, by omega⟩
      = ∑ N : Fin 4096, f N := by
  have h : ∑ N : Fin 4096, f N = ∑ k : Fin 4, ∑ n : Fin 1024, f ⟨k.val * 1024 + n.val, by omega⟩ := by
    rw [← Fintype.sum_prod_type']
    refine (Fintype.sum_equiv (finProdFinEquiv (m := 4) (n := 1024)) _ _ fun p => ?_).symm
    refine congrArg f (Fin.ext ?_)
    show p.1.val * 1024 + p.2.val = p.2.val + 1024 * p.1.val
    omega
  rw [h, Fin.sum_univ_four, zero_add]
  rfl

/-- A sum over the indices of a rank-3 shape is the iterated sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun j => (j 0, j 1, j 2)
      invFun := fun p => ix3 p.1 p.2.1 p.2.2
      left_inv := fun j => (eq_ix3 j).symm
      right_inv := fun _ => rfl }
  rw [Fintype.sum_equiv e f (fun p => f (ix3 p.1 p.2.1 p.2.2)) (fun j => congrArg f (eq_ix3 j)),
    Fintype.sum_prod_type]
  exact Finset.sum_congr rfl fun a _ => Fintype.sum_prod_type _

end Cert.Decorr

end
-- ==== Proof.KernelPayload.lean ====
/-
  The kernel body's arithmetic, read entry by entry over the extended reals.

  One grid step holds a [1, 1024, 1024] slice `x` of the input (all channels, 1024 consecutive positions).  It adds to the
  running Gram matrix the products of the slice's rows, and to the running diagonal energies the sums of squares of the
  rows; the two resets store zeros; the last step of a batch turns the finished matrix and energies into the row losses.
-/
import proofs.«427626_j27633819582907_3_alg».proof.Proof.Gen.KernelIdeal.Skeleton
import proofs.«427626_j27633819582907_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-! ## Layout readings by coordinates -/

/-- A vector of length `n` viewed as an `n × 1` column reads its entry `c` at `(c, z)`. -/
theorem shapeCast_col_apply {α : Type} {n : ℕ} (v : (⟨1, ![n]⟩ : Shape).Idx → α)
    (h : (⟨1, ![n]⟩ : Shape).ShapeCasts ⟨2, ![n, 1]⟩) (c : Fin n) (z : Fin 1) :
    shapeCast ⟨2, ![n, 1]⟩ v h (ix2 c z) = v (ix1 c) :=
  shapeCast_apply v h _ _ (by
    have hz : z.val = 0 := by omega
    rw [Shape.rowMajor_val_one, Shape.rowMajor_val_two]
    show c.val = c.val * 1 + z.val
    rw [hz, Nat.mul_one, Nat.add_zero])

/-- An `n × 1` column spread over `m` columns reads, at `(c, d)`, the column's entry `c`. -/
theorem broadcastTo_col_apply {α : Type} {n m : ℕ} (v : (⟨2, ![n, 1]⟩ : Shape).Idx → α)
    (h : (⟨2, ![n, 1]⟩ : Shape).Broadcasts ⟨2, ![n, m]⟩) (c : Fin n) (d : Fin m) :
    broadcastTo ⟨2, ![n, m]⟩ v h (ix2 c d) = v (ix2 c (0 : Fin 1)) := by
  refine broadcastTo_apply v h (ix2 c d) (ix2 c (0 : Fin 1)) fun ax => ?_
  match ax with
  | ⟨0, _⟩ =>
    show c.val = if n = 1 then 0 else c.val
    split
    · have := c.isLt; omega
    · rfl
  | ⟨1, _⟩ => rfl

/-- The index a reduction over the columns inserts coordinate `k` into, at row `c`, is `(c, k)`. -/
theorem lift_row (h : S1024x1024.Reduces [1] S1024) (c : Fin 1024) (k : Fin (S1024x1024.size 1)) :
    h.lift (ix1 c) k = ix2 c k :=
  funext fun a => Fin.ext (by match a with | ⟨0, _⟩ => rfl | ⟨1, _⟩ => rfl)

/-! ## The constant and the two resets -/

/-- The constant the kernel scales its logits by denotes the exact reciprocal of the temperature. -/
theorem named_invT :
    Named.named (F := Ideal) Cert.KernelIdeal.κ "inv_temperature" (φ := .f32) 0x40A00000#32 = Cert.Decorr.invT := by
  unfold Cert.Decorr.invT
  exact IdealRules.named_const.ideal_named_scalar _ _ _ _ rfl

/-- The matrix reset stores zero everywhere. -/
theorem pay1_apply (i : S1024x1024.Idx) : k0_pay1 (F := Ideal) i = 0 := by
  unfold k0_pay1
  rw [shapeCast_self]
  exact Ideal.ofBits_zero_f32

/-- The energy reset stores zero everywhere. -/
theorem pay2_apply (i : S1024x1.Idx) : k0_pay2 (F := Ideal) i = 0 := by
  unfold k0_pay2
  rw [shapeCast_self]
  exact Ideal.ofBits_zero_f32

/-! ## The slice as a matrix -/

/-- The slice with its leading unit axis dropped reads, at `(c, n)`, the slice at `(0, c, n)`. -/
theorem pay3_apply (x : Vec Ideal S1x1024x1024 .f32) (c n : Fin 1024) :
    k0_pay3 (F := Ideal) x (ix2 c n) = x (ix3 0 c n) := by
  unfold k0_pay3
  exact shapeCast_1ab_ab_apply x _ c n

/-- One step of the energies: entry `c` gains the sum of squares of row `c` of the slice. -/
theorem pay5_apply (x : Vec Ideal S1x1024x1024 .f32) (q : Vec Ideal S1024x1 .f32) (c : Fin 1024) :
    k0_pay5 (F := Ideal) x q (ix2 c 0) = q (ix2 c 0) + ∑ n : Fin 1024, x (ix3 0 c n) * x (ix3 0 c n) := by
  unfold k0_pay5
  rw [shapeCast_self]
  refine congrArg (q (ix2 c 0) + ·) ?_
  refine (shapeCast_col_apply _ _ c 0).trans ?_
  refine (Ideal.multiReduction_add_single _ _ _ _ _ (ix1 c)).trans ?_
  refine Finset.sum_congr rfl fun n _ => ?_
  rw [lift_row]
  exact congrArg₂ (· * ·) (pay3_apply x c n) (pay3_apply x c n)

/-! ## The product of the slice with its own transpose -/

/-- In the kernel's contraction the left operand's row is the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction position. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row is the output's column. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction position. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A matrix times its own transpose, accumulated into zero, reads at `(c, d)` the sum over `n` of the products of its
    entries `(c, n)` and `(d, n)`. -/
theorem gram_apply (v : FVec Ideal S1024x1024 .bf16) (c d : Fin 1024) :
    matmul dot_S1024x1024_S1024x1024_S1024x1024_1_1_0_0_n_n none v v (constant (F := Ideal) S1024x1024 .f32 0x00000000#32) (ix2 c d)
      = ∑ n : Fin 1024, v (ix2 c n) * v (ix2 d n) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 c d) ((contrEquiv1 dot_S1024x1024_S1024x1024_S1024x1024_1_1_0_0_n_n 1024 rfl rfl).symm k) = ix2 c k := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 c d) ((contrEquiv1 dot_S1024x1024_S1024x1024_S1024x1024_1_1_0_0_n_n 1024 rfl rfl).symm k) = ix2 d k := funext fun a => Fin.ext (by
    match a with
    | ⟨0, _⟩ => exact rhs_row _ _
    | ⟨1, _⟩ => exact (rhs_col _ _).trans hk)
  rw [el, er]

/-- One step of the matrix: entry `(c, d)` gains the product of rows `c` and `d` of the slice, summed over the slice's
    1024 positions. -/
theorem pay4_apply (x : Vec Ideal S1x1024x1024 .f32) (a : Vec Ideal S1024x1024 .f32) (c d : Fin 1024) :
    k0_pay4 (F := Ideal) x a (ix2 c d) = a (ix2 c d) + ∑ n : Fin 1024, x (ix3 0 c n) * x (ix3 0 d n) := by
  unfold k0_pay4
  rw [shapeCast_self]
  refine congrArg (a (ix2 c d) + ·) ?_
  refine (gram_apply _ c d).trans ?_
  refine Finset.sum_congr rfl fun n _ => ?_
  exact congrArg₂ (· * ·) (pay3_apply x c n) (pay3_apply x d n)

/-! ## The finished matrix turned into row losses -/

/-- The scaled logits: the finished matrix times the inverse temperature. -/
def scaledLogits (A : Vec Ideal S1024x1024 .f32) : FVec Ideal S1024x1024 .f32 :=
  mulf A (broadcast S1024x1024 (Named.named κ "inv_temperature" 0x40A00000#32))

/-- The column of the rows' largest scaled logits. -/
def maxColumn (A : Vec Ideal S1024x1024 .f32) : FVec Ideal S1024x1 .f32 :=
  shapeCast S1024x1 (multiReduction .maximumf [1] S1024 (scaledLogits A) 0xFF800000#32 reduces_S1024x1024_S1024 (.inl rfl) rfl)
    shapeCasts_S1024_S1024x1

/-- The column of the rows' softmax normalisers: the exponentials of the scaled logits less their row's maximum, summed
    along the row. -/
def sumColumn (A : Vec Ideal S1024x1024 .f32) : FVec Ideal S1024x1 .f32 :=
  shapeCast S1024x1 (multiReduction .add [1] S1024
      (exp (subf (scaledLogits A) (broadcastTo S1024x1024 (maxColumn A) broadcasts_S1024x1_S1024x1024)))
      0x00000000#32 reduces_S1024x1024_S1024 (.inl rfl) rfl)
    shapeCasts_S1024_S1024x1

/-- A scaled logit is the matrix entry times the inverse temperature. -/
theorem scaledLogits_apply (A : Vec Ideal S1024x1024 .f32) (c d : Fin 1024) :
    scaledLogits A (ix2 c d) = A (ix2 c d) * Cert.Decorr.invT :=
  congrArg (A (ix2 c d) * ·) named_invT

/-- Entry `c` of the column of maxima is the largest scaled logit of row `c`. -/
theorem maxColumn_apply (A : Vec Ideal S1024x1024 .f32) (c : Fin 1024) (z : Fin 1) :
    maxColumn A (ix2 c z) = Cert.Decorr.rowMax (fun d => A (ix2 c d)) := by
  unfold maxColumn
  refine (shapeCast_col_apply _ _ c z).trans ?_
  refine (Ideal.multiReduction_maximumf_single _ _ _ _ _ (ix1 c)).trans ?_
  unfold Cert.Decorr.rowMax
  rw [Ideal.ofBits_def, Cert.Decorr.ofBits_neg_inf]
  refine Finset.fold_congr fun k _ => ?_
  refine (congrArg (scaledLogits A) (lift_row _ c k)).trans ?_
  exact scaledLogits_apply A c k

/-- Entry `c` of the column of normalisers is the softmax normaliser of row `c`. -/
theorem sumColumn_apply (A : Vec Ideal S1024x1024 .f32) (c : Fin 1024) (z : Fin 1) :
    sumColumn A (ix2 c z) = Cert.Decorr.rowSum (fun d => A (ix2 c d)) := by
  unfold sumColumn
  refine (shapeCast_col_apply _ _ c z).trans ?_
  refine (Ideal.multiReduction_add_single _ _ _ _ _ (ix1 c)).trans ?_
  unfold Cert.Decorr.rowSum
  refine Finset.sum_congr rfl fun k _ => ?_
  rw [lift_row]
  exact congrArg Ideal.exp (congrArg₂ (· - ·) (scaledLogits_apply A c k)
    ((broadcastTo_col_apply _ _ c k).trans (maxColumn_apply A c 0)))

/-- The last step of a batch: row `c` of the finished matrix `A` and entry `c` of the finished energies `q` give the loss
    of row `c`. -/
theorem pay6_apply (A : Vec Ideal S1024x1024 .f32) (q : Vec Ideal S1024x1 .f32) (c : Fin 1024) :
    k0_pay6 (F := Ideal) A q (ix3 0 c 0) = Cert.Decorr.rowLoss (fun d => A (ix2 c d)) (q (ix2 c 0)) := by
  unfold k0_pay6
  refine (shapeCast_ab_1ab_apply _ _ 0 c 0).trans ?_
  show Ideal.ofBits .f32 0x00000000#32
      - Ideal.log (Ideal.div (Ideal.exp (q (ix2 c 0) * Named.named (F := Ideal) κ "inv_temperature" (φ := .f32) 0x40A00000#32
          - maxColumn A (ix2 c 0))) (sumColumn A (ix2 c 0)) + Ideal.ofBits .f32 0x2EDBE6FF#32) = _
  rw [maxColumn_apply, sumColumn_apply, named_invT, Ideal.ofBits_zero_f32]
  rfl

end Cert.KernelIdeal.KValue

end
-- ==== Proof.KernelArray.lean ====
/-
  The kernel's result, read over the extended reals.

  The grid has 32 points, four per batch: point `4b + k` holds positions `1024k … 1024k + 1023` of batch `b`.  Over the
  four points of a batch the running matrix becomes `(((0 + S₀) + S₁) + S₂) + S₃`, where `Sₖ` is the Gram matrix of the
  `k`-th chunk of positions, and likewise the running energies; regrouping the four chunks gives the Gram matrix over all
  4096 positions.  The last point of the batch writes the batch's column of row losses, so the result array holds at
  `(b, c, 0)` the loss of row `c` of batch `b`; the lines after the kernel add the 8192 entries onto zero and divide by
  8192, which is the mean loss of the specification.
-/
import proofs.«427626_j27633819582907_3_alg».proof.Proof.Gen.KernelIdeal.Frame
import proofs.«427626_j27633819582907_3_alg».proof.Proof.KernelPieces
import proofs.«427626_j27633819582907_3_alg».proof.Proof.KernelPayload
import proofs.«427626_j27633819582907_3_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The input as the kernel's region finds it: an array of shape [8, 1024, 4096]. -/
abbrev X (c : Dev nD) : S8x1024x4096.Idx → EReal := V m c main_v0

/-! ## Where a point's blocks sit -/

/-- Point `t` reads block `(t / 4, 0, t % 4)` of the input; decided over the grid. -/
theorem in_block : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- Point `t` writes block `(t / 4, 0, 0)` of the result; decided over the grid. -/
theorem out_block : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The grid has 32 points. -/
theorem pt_lt (t : Fin cfg0.N) : t.val < 32 := lt_of_lt_of_eq t.isLt (show cfg0.N = 32 from N_0)

/-- The slice of the input that point `t` holds, at its literal shape [1, 1024, 1024]. -/
abbrev xblk (c : Dev nD) (t : Fin cfg0.N) : Vec Ideal S1x1024x1024 .f32 := iblk m c 0 t

/-- The slice point `t` holds: channel `cc`, position `n` of the slice is position `1024 · (t % 4) + n` of batch `t / 4`. -/
theorem slice_apply (c : Dev nD) (t : Fin cfg0.N) (cc n : Fin 1024) :
    xblk m c t (ix3 0 cc n)
      = X m c (ix3 ⟨t.val / 4, by have := pt_lt t; omega⟩ cc
          ⟨t.val % 4 * 1024 + n.val, by have := n.isLt; omega⟩) := by
  obtain ⟨e0, e1, e2⟩ := in_block t
  show iblk m c 0 t (ix3 0 cc n) = _
  unfold iblk
  rw [View.read_apply]
  show V m c main_v0 _ = V m c main_v0 _
  congr 1
  funext a
  apply Fin.ext
  match a with
  | ⟨0, _⟩ => show win0_0.index t (0 : Fin 3) * 1 + 1 * 0 = t.val / 4; rw [e0]; omega
  | ⟨1, _⟩ => show win0_0.index t (1 : Fin 3) * 1024 + 1 * cc.val = cc.val; rw [e1]; omega
  | ⟨2, _⟩ => show win0_0.index t (2 : Fin 3) * 1024 + 1 * n.val = t.val % 4 * 1024 + n.val; rw [e2]; omega

/-! ## The running matrix and energies -/

/-- The matrix and the energies the body leaves after point `t`. -/
abbrev mat (c : Dev nD) (t : Fin cfg0.N) : Vec Ideal S1024x1024 .f32 := (outsAt0 m c t.val t.isLt).2.1
abbrev eng (c : Dev nD) (t : Fin cfg0.N) : Vec Ideal S1024x1 .f32 := (outsAt0 m c t.val t.isLt).2.2

/-- After the first point of a batch: the reset values with the point's contribution added. -/
theorem scr_first (c : Dev nD) (t : Fin cfg0.N) (h0 : t.val % 4 = 0) :
    (outsAt0 m c t.val t.isLt).2 = (k0_pay4 (xblk m c t) (k0_pay1 (F := Ideal)), k0_pay5 (xblk m c t) (k0_pay2 (F := Ideal))) := by
  rw [outsAt0_A m c t h0 (by omega)]
  dsimp only
  rw [sout_A_0, sout_A_1]

/-- After any later point: what the point before left with this point's contribution added. -/
theorem scr_next (c : Dev nD) (t : Fin cfg0.N) (h0 : ¬t.val % 4 = 0) :
    (outsAt0 m c t.val t.isLt).2
      = (k0_pay4 (xblk m c t) (outsAt0 m c (t.val - 1) (Nat.lt_of_le_of_lt (Nat.sub_le _ _) t.isLt)).2.1,
         k0_pay5 (xblk m c t) (outsAt0 m c (t.val - 1) (Nat.lt_of_le_of_lt (Nat.sub_le _ _) t.isLt)).2.2) := by
  by_cases h1 : t.val % 4 = 3
  · rw [outsAt0_C m c t h0 h1]
    dsimp only
    rw [sout_C_0, sout_C_1]
  · rw [outsAt0_B m c t h0 h1]
    dsimp only
    rw [sout_B_0, sout_B_1]

/-- At the last point of a batch the column written is the row losses of the matrix and energies that point leaves. -/
theorem out_last (c : Dev nD) (t : Fin cfg0.N) (h3 : t.val % 4 = 3) :
    (outsAt0 m c t.val t.isLt).1 = k0_pay6 (mat m c t) (eng m c t) := by
  have h0 : ¬t.val % 4 = 0 := by omega
  show _ = k0_pay6 (outsAt0 m c t.val t.isLt).2.1 (outsAt0 m c t.val t.isLt).2.2
  rw [scr_next m c t h0, outsAt0_C m c t h0 h3]
  dsimp only
  rw [out_C_1]

/-- Point `k` of batch `b`. -/
abbrev P (b : Fin 8) (k : ℕ) (hk : k < 4) : Fin cfg0.N :=
  ⟨4 * b.val + k, lt_of_lt_of_eq (by have := b.isLt; omega : 4 * b.val + k < 32) (show 32 = cfg0.N from N_0.symm)⟩

/-- The products of rows `cc` and `d` of the slice at point `t`, summed over the slice's positions. -/
def chunkProd (c : Dev nD) (t : Fin cfg0.N) (cc d : Fin 1024) : EReal :=
  ∑ n : Fin 1024, xblk m c t (ix3 0 cc n) * xblk m c t (ix3 0 d n)

/-- At point `k` of batch `b` those are the products over positions `1024k … 1024k + 1023` of the batch. -/
theorem chunkProd_eq (c : Dev nD) (b : Fin 8) (k : ℕ) (hk : k < 4) (cc d : Fin 1024) :
    chunkProd m c (P b k hk) cc d
      = ∑ n : Fin 1024, (fun N : Fin 4096 => X m c (ix3 b cc N) * X m c (ix3 b d N)) ⟨k * 1024 + n.val, by have := n.isLt; omega⟩ := by
  unfold chunkProd
  refine Finset.sum_congr rfl fun n _ => ?_
  rw [slice_apply, slice_apply]
  have hb : (⟨(P b k hk).val / 4, by have := pt_lt (P b k hk); omega⟩ : Fin 8) = b := Fin.ext (by show (4 * b.val + k) / 4 = b.val; omega)
  have hn : (⟨(P b k hk).val % 4 * 1024 + n.val, by have := n.isLt; omega⟩ : Fin 4096) = ⟨k * 1024 + n.val, by have := n.isLt; omega⟩ :=
    Fin.ext (by show (4 * b.val + k) % 4 * 1024 + n.val = k * 1024 + n.val; have : (4 * b.val + k) % 4 = k := by omega
                rw [this])
  rw [hb, hn]

theorem mat_first (c : Dev nD) (t : Fin cfg0.N) (h0 : t.val % 4 = 0) (cc d : Fin 1024) :
    mat m c t (ix2 cc d) = 0 + chunkProd m c t cc d := by
  show (outsAt0 m c t.val t.isLt).2.1 (ix2 cc d) = _
  rw [scr_first m c t h0]
  dsimp only
  rw [pay4_apply, pay1_apply]
  rfl

theorem mat_next (c : Dev nD) (t p : Fin cfg0.N) (hp : p.val + 1 = t.val) (h0 : ¬t.val % 4 = 0) (cc d : Fin 1024) :
    mat m c t (ix2 cc d) = mat m c p (ix2 cc d) + chunkProd m c t cc d := by
  obtain rfl : p = ⟨t.val - 1, Nat.lt_of_le_of_lt (Nat.sub_le _ _) t.isLt⟩ := Fin.ext (by show p.val = t.val - 1; omega)
  show (outsAt0 m c t.val t.isLt).2.1 (ix2 cc d) = _
  rw [scr_next m c t h0]
  dsimp only
  rw [pay4_apply]
  rfl

theorem eng_first (c : Dev nD) (t : Fin cfg0.N) (h0 : t.val % 4 = 0) (cc : Fin 1024) :
    eng m c t (ix2 cc 0) = 0 + chunkProd m c t cc cc := by
  show (outsAt0 m c t.val t.isLt).2.2 (ix2 cc 0) = _
  rw [scr_first m c t h0]
  dsimp only
  rw [pay5_apply, pay2_apply]
  rfl

theorem eng_next (c : Dev nD) (t p : Fin cfg0.N) (hp : p.val + 1 = t.val) (h0 : ¬t.val % 4 = 0) (cc : Fin 1024) :
    eng m c t (ix2 cc 0) = eng m c p (ix2 cc 0) + chunkProd m c t cc cc := by
  obtain rfl : p = ⟨t.val - 1, Nat.lt_of_le_of_lt (Nat.sub_le _ _) t.isLt⟩ := Fin.ext (by show p.val = t.val - 1; omega)
  show (outsAt0 m c t.val t.isLt).2.2 (ix2 cc 0) = _
  rw [scr_next m c t h0]
  dsimp only
  rw [pay5_apply]
  rfl

/-- After the last point of batch `b` the matrix is the batch's Gram matrix over all 4096 positions. -/
theorem mat_last (c : Dev nD) (b : Fin 8) (cc d : Fin 1024) :
    mat m c (P b 3 (by decide)) (ix2 cc d) = Cert.Decorr.gram (X m c) b cc d := by
  rw [mat_next m c (P b 3 (by decide)) (P b 2 (by decide)) rfl (by show ¬(4 * b.val + 3) % 4 = 0; omega),
    mat_next m c (P b 2 (by decide)) (P b 1 (by decide)) rfl (by show ¬(4 * b.val + 2) % 4 = 0; omega),
    mat_next m c (P b 1 (by decide)) (P b 0 (by decide)) rfl (by show ¬(4 * b.val + 1) % 4 = 0; omega),
    mat_first m c (P b 0 (by decide)) (by show (4 * b.val + 0) % 4 = 0; omega),
    chunkProd_eq, chunkProd_eq, chunkProd_eq, chunkProd_eq]
  exact Cert.Decorr.sum_chunks (fun N : Fin 4096 => X m c (ix3 b cc N) * X m c (ix3 b d N))

/-- And the energies are the diagonal of that Gram matrix. -/
theorem eng_last (c : Dev nD) (b : Fin 8) (cc : Fin 1024) :
    eng m c (P b 3 (by decide)) (ix2 cc 0) = Cert.Decorr.gram (X m c) b cc cc := by
  rw [eng_next m c (P b 3 (by decide)) (P b 2 (by decide)) rfl (by show ¬(4 * b.val + 3) % 4 = 0; omega),
    eng_next m c (P b 2 (by decide)) (P b 1 (by decide)) rfl (by show ¬(4 * b.val + 2) % 4 = 0; omega),
    eng_next m c (P b 1 (by decide)) (P b 0 (by decide)) rfl (by show ¬(4 * b.val + 1) % 4 = 0; omega),
    eng_first m c (P b 0 (by decide)) (by show (4 * b.val + 0) % 4 = 0; omega),
    chunkProd_eq, chunkProd_eq, chunkProd_eq, chunkProd_eq]
  exact Cert.Decorr.sum_chunks (fun N : Fin 4096 => X m c (ix3 b cc N) * X m c (ix3 b cc N))

/-- The column the last point of batch `b` writes: entry `cc` is the loss of row `cc` of the batch. -/
theorem column_apply (c : Dev nD) (b : Fin 8) (cc : Fin 1024) :
    (outsAt0 m c (P b 3 (by decide)).val (P b 3 (by decide)).isLt).1 (ix3 0 cc 0) = Cert.Decorr.loss (X m c) b cc := by
  rw [out_last m c (P b 3 (by decide)) (by show (4 * b.val + 3) % 4 = 3; omega), pay6_apply, eng_last]
  unfold Cert.Decorr.loss
  congr 1
  funext d
  exact mat_last m c b cc d

/-! ## The result array -/

/-- What the result array ends holding: at `(b, cc, 0)` the loss of row `cc` of batch `b`. -/
abbrev lossArr (c : Dev nD) : Buf (Elt Ideal) ((c : Thread nD τ).loc main_v1) :=
  fun j => Cert.Decorr.loss (X m c) (j 0) (j 1)

/-- The column the last point `t` of a batch writes, at any index of the block: the loss of that row of batch `t / 4`. -/
theorem column_at (c : Dev nD) (t : Fin cfg0.N) (h3 : t.val % 4 = 3) (y : S1x1024x1.Idx) :
    (outsAt0 m c t.val t.isLt).1 y = Cert.Decorr.loss (X m c) ⟨t.val / 4, by have := pt_lt t; omega⟩ (y 1) := by
  have hN := pt_lt t
  have hy0 : (y 0).val < 1 := (y 0).isLt
  have hy1 : (y 1).val < 1024 := (y 1).isLt
  have hy2 : (y 2).val < 1 := (y 2).isLt
  have key : ∀ cc : Fin 1024, (outsAt0 m c t.val t.isLt).1 (ix3 (0 : Fin 1) cc (0 : Fin 1))
      = Cert.Decorr.loss (X m c) ⟨t.val / 4, by omega⟩ cc := by
    intro cc
    obtain ⟨b, rfl⟩ : ∃ b : Fin 8, t = P b 3 (by decide) :=
      ⟨⟨t.val / 4, by omega⟩, Fin.ext (by show t.val = 4 * (t.val / 4) + 3; omega)⟩
    rw [column_apply]
    congr 1
    exact Fin.ext (by show b.val = (4 * b.val + 3) / 4; omega)
  have hy : y = ix3 (0 : Fin 1) (⟨(y 1).val, hy1⟩ : Fin 1024) (0 : Fin 1) := funext fun a => by
    match a with
    | ⟨0, _⟩ => exact Fin.ext (by show (y 0).val = 0; omega)
    | ⟨1, _⟩ => rfl
    | ⟨2, _⟩ => exact Fin.ext (by show (y 2).val = 0; omega)
  exact (congrArg (outsAt0 m c t.val t.isLt).1 hy).trans (key ⟨(y 1).val, hy1⟩)

/-- What the last point of a batch writes back is that batch's block of the loss array. -/
theorem flushed_eq (c : Dev nD) (t : Fin cfg0.N) (hf : (cfg0.win 1).flush t = true) :
    (dats m 0 c).flushed 1 t = ((cfg0.win 1).blk t).view.read (Elt Ideal) (lossArr m c) := by
  have h3 : t.val % 4 = 3 := (flush0_1 t).mp hf
  have hN := pt_lt t
  obtain ⟨e0, e1, e2⟩ := out_block t
  show (cfg0.win 1).cut (grid0.coords t) ((dats m 0 c).after 1 t) = _
  rw [after0_1]
  funext j
  rw [View.read_apply]
  refine (column_at m c t h3 j).trans ?_
  show _ = Cert.Decorr.loss (X m c) _ _
  have hj0 : (j 0).val < 1 := (j 0).isLt
  congr 1
  · apply Fin.ext
    show t.val / 4 = win0_1.index t (0 : Fin 3) * 1 + 1 * (j 0).val
    rw [e0]; omega
  · apply Fin.ext
    show (j 1).val = win0_1.index t (1 : Fin 3) * 1024 + 1 * (j 1).val
    rw [e1]; omega

/-- An index of the result array is in point `t`'s block iff each coordinate is in the block's range on its axis. -/
theorem mem_blk (t : Fin cfg0.N) (i : S8x1024x1.Idx) :
    i ∈ ((cfg0.win 1).blk t).view.set ↔ ∀ a : Fin 3, win0_1.index t a * S1x1024x1.size a ≤ (i a).val
      ∧ (i a).val < win0_1.index t a * S1x1024x1.size a + S1x1024x1.size a := by
  show i ∈ ((View.whole main_v1).slice (win0_1.rect t)).set ↔ _
  rw [View.set_slice_whole, Rect.mem_set_unit]
  exact Iff.rfl

/-- After the run the result array is the loss array: the eight last points' blocks tile it. -/
theorem final_arr (c : Dev nD) : (dats m 0 c).arrAt 1 cfg0.N = lossArr m c :=
  (dats m 0 c).arrAt_eq_of_cover 1 (lossArr m c) (flushed_eq m c) fun i => by
    have h0 : (i 0).val < 8 := (i 0).isLt
    have h1 : (i 1).val < 1024 := (i 1).isLt
    have h2 : (i 2).val < 1 := (i 2).isLt
    refine ⟨P ⟨(i 0).val, h0⟩ 3 (by decide), (flush0_1 _).mpr (by show (4 * (i 0).val + 3) % 4 = 3; omega), ?_⟩
    obtain ⟨e0, e1, e2⟩ := out_block (P ⟨(i 0).val, h0⟩ 3 (by decide))
    rw [mem_blk]
    intro a
    match a with
    | ⟨0, _⟩ =>
      show win0_1.index (P ⟨(i 0).val, h0⟩ 3 (by decide)) (0 : Fin 3) * 1 ≤ (i 0).val
        ∧ (i 0).val < win0_1.index (P ⟨(i 0).val, h0⟩ 3 (by decide)) (0 : Fin 3) * 1 + 1
      rw [e0]; show (4 * (i 0).val + 3) / 4 * 1 ≤ (i 0).val ∧ (i 0).val < (4 * (i 0).val + 3) / 4 * 1 + 1; omega
    | ⟨1, _⟩ =>
      show win0_1.index (P ⟨(i 0).val, h0⟩ 3 (by decide)) (1 : Fin 3) * 1024 ≤ (i 1).val
        ∧ (i 1).val < win0_1.index (P ⟨(i 0).val, h0⟩ 3 (by decide)) (1 : Fin 3) * 1024 + 1024
      rw [e1]; omega
    | ⟨2, _⟩ =>
      show win0_1.index (P ⟨(i 0).val, h0⟩ 3 (by decide)) (2 : Fin 3) * 1 ≤ (i 2).val
        ∧ (i 2).val < win0_1.index (P ⟨(i 0).val, h0⟩ 3 (by decide)) (2 : Fin 3) * 1 + 1
      rw [e2]; omega

/-! ## The lines after the kernel, and the run -/

/-- The array the kernel reads is the argument reshaped to [8, 1024, 4096]. -/
theorem X_eq (c : Dev nD) :
    X m c = shapeCast S8x1024x4096 (m ((c : Thread nD τ).loc main_arg0)) shapeCasts_S8x1024x64x64_S8x1024x4096 := by
  show StableHlo.after hostOps0 (fun b => m (c, b)) (Proc.devRef .tc main_v0) = _
  after_results
  rfl

/-- The lines after the kernel add the 8192 entries of the loss array onto zero and divide by 8192. -/
theorem tail_eq (c : Dev nD) :
    Pipeline.afterTail₀ cfgs (dats m) 0 (V0 m) [hostOps1] c main_v3 = fun _ => Cert.Decorr.total (X m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v1)
      = lossArr m c from (Pipeline.withArrays_arr spec0 launch0.win.arr_inj c _ _ 1).trans (final_arr m c)]
  funext i
  show FloatOps.hostDivf (Host.reduceAdd (lossArr m c) (constant S_ .f32 0x00000000#32) reducesTo_S8x1024x1_S_d0_1_2 h_S_ i)
    (constant (F := Ideal) S_ .f32 0x46000000#32 i) = _
  simp only [Host.reduceAdd, Ideal.hostReduceAdd_def, Ideal.hostDivf_def]
  rw [Ideal.hostReduceAdd_total reducesTo_S8x1024x1_S_d0_1_2 (fun b => b.elim0) (lossArr m c) _ i, Cert.Decorr.sum_idx3]
  simp only [Fin.sum_univ_one]
  show Ideal.div (Ideal.ofBits .f32 0x00000000#32 + ∑ a : Fin 8, ∑ b : Fin 1024, Cert.Decorr.loss (X m c) a b)
    (Ideal.ofBits .f32 0x46000000#32) = _
  rw [Ideal.ofBits_zero_f32]
  rfl

/-- The kernel's run: every execution ends with the scalar result at the mean loss of the reshaped argument, the
    argument unchanged. -/
theorem run : θ_run defs (onTc (τ := τ) (main (F := Ideal))) ⟨m, fun _ => 0, ρ⟩ fun r => ∀ c : Dev nD,
      r.2.mem ((c : Thread nD τ).loc main_v3)
          = (fun _ => Cert.Decorr.total
              (shapeCast S8x1024x4096 (m ((c : Thread nD τ).loc main_arg0)) shapeCasts_S8x1024x64x64_S8x1024x4096))
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans
          ((tail_eq m c).trans (by rw [X_eq])),
        ((h c).2 main_arg0 (Pipeline.mem_restRefs_of main_arg0 (by decide) (by decide))).trans (W_main_arg0 m (dats m) c)⟩)
    (run_main m ρ)

end Cert.KernelIdeal.KValue

end
-- ==== Proof.RefDiagonal.lean ====
/-
  The reference's diagonal extraction.

  The reference takes the diagonal of each batch's [1024, 1024] matrix by a gather whose start indices are a table of
  1024 pairs; row `c` of the table is the pair `(c, c)`, each component a counter wrapped into range if negative
  (it never is).  The gathered element at `(b, c)` is therefore the matrix entry `(b, c, c)`.
-/
import proofs.«427626_j27633819582907_3_alg».proof.Proof.Gen.ReferenceIdeal.Read
import Idealize.ShloMosaic.Lib.ValueIdx
import Idealize.ShloMosaic.Lib.StableHlo.Predicate

noncomputable section

namespace Cert.ReferenceIdeal.RefValue

open Cert.ReferenceIdeal Cert.ReferenceIdeal.Gen Idealize.ShloMosaic Idealize.ShloMosaic.ValueIdx

/-- A counter below 1024, as a 32-bit word, is not below zero in the signed order. -/
theorem counter_not_neg (c : Nat) (hc : c < 1024) : IntOp.cmpi .slt (BitVec.ofNat 32 c) 0#32 = 0#1 := by
  refine eq_zero_of_ne_one fun h => ?_
  have hn : (BitVec.ofNat 32 c).toNat = c := by rw [BitVec.toNat_ofNat]; exact Nat.mod_eq_of_lt (by omega)
  have := (StableHlo.Predicate.slt_iff_toNat (a := BitVec.ofNat 32 c) (b := 0#32) (by rw [hn]; omega) (by decide)).mp h
  simp at this

/-- A counter below 1024, as a 32-bit word read signed, is the counter. -/
theorem counter_toInt_toNat (c : Nat) (hc : c < 1024) : (BitVec.ofNat 32 c).toInt.toNat = c := by
  rw [StableHlo.Predicate.toInt_ofNat_small c (by omega)]; rfl

/-- The wrapped counter at position `c`: the counter itself, since it is not negative. -/
theorem wrapped_counter (i : S1024.Idx) :
    Read.val_main_call0_v6 (F := Ideal) i = BitVec.ofNat 32 (i 0).val := by
  rw [Read.val_main_call0_v6_apply, Read.val_main_call0_v3_apply, Read.val_main_call0_v0_apply,
    Read.val_main_call0_v2_apply, Read.val_main_call0_c_apply, counter_not_neg _ (i 0).isLt, select_zero]

/-- The second wrapped counter at position `c`: again the counter itself. -/
theorem wrapped_counter' (i : S1024.Idx) :
    Read.val_main_call0_v11 (F := Ideal) i = BitVec.ofNat 32 (i 0).val := by
  rw [Read.val_main_call0_v11_apply, Read.val_main_call0_v8_apply, Read.val_main_call0_v1_apply,
    Read.val_main_call0_v7_apply, Read.val_main_call0_c_1_apply, counter_not_neg _ (i 0).isLt, select_zero]

/-- Row `c` of the table of start indices has first component `c`. -/
theorem table_fst (c : Fin 1024) :
    Read.val_main_call0_v14 (F := Ideal) (ix2 c (0 : Fin 2)) = BitVec.ofNat 32 c.val := by
  unfold Read.val_main_call0_v14
  rw [concatenate_pair_apply_left (t := S1024x2) (s₁ := S1024x1) (s₂ := S1024x1) (1 : Fin 2) _ _ _ (ix2 c (0 : Fin 2)) rfl (ix2 c (0 : Fin 1))
    (fun b => match b with | ⟨0, _⟩ => rfl | ⟨1, _⟩ => rfl)]
  rw [Read.val_main_call0_v12_apply, wrapped_counter]

/-- Row `c` of the table of start indices has second component `c`. -/
theorem table_snd (c : Fin 1024) :
    Read.val_main_call0_v14 (F := Ideal) (ix2 c (1 : Fin 2)) = BitVec.ofNat 32 c.val := by
  unfold Read.val_main_call0_v14
  rw [concatenate_pair_apply_right (t := S1024x2) (s₁ := S1024x1) (s₂ := S1024x1) (1 : Fin 2) _ _ _ (ix2 c (1 : Fin 2)) rfl rfl (ix2 c (0 : Fin 1))
    (fun b => match b with | ⟨0, _⟩ => fun _ => rfl | ⟨1, _⟩ => fun h => absurd rfl h) rfl]
  rw [Read.val_main_call0_v13_apply, wrapped_counter']

/-- The gather through the table of pairs `(c, c)` reads the operand on the diagonal of its last two axes. -/
theorem diagonal_gather {α : Type} (y : S8x1024x1024.Idx → α) (b : Fin 8) (c : Fin 1024) :
    Host.gather gather_S8x1024x1024_S1024x2_S8x1024_0_12_n_n_12_1_811 y (Read.val_main_call0_v14 (F := Ideal)) (ix2 b c)
      = y (ix3 b c c) := by
  unfold Host.gather
  congr 1
  funext a
  refine Fin.ext ?_
  match a with
  | ⟨0, _⟩ =>
    -- axis 0 is the offset axis: no start component, no batching, the result's coordinate `b`
    show gather_S8x1024x1024_S1024x2_S8x1024_0_12_n_n_12_1_811.start (ix2 b c) (Read.val_main_call0_v14 (F := Ideal)) 0
      + gather_S8x1024x1024_S1024x2_S8x1024_0_12_n_n_12_1_811.batchCoord (ix2 b c) 0
      + gather_S8x1024x1024_S1024x2_S8x1024_0_12_n_n_12_1_811.offCoord (ix2 b c) 0 = b.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    -- axis 1 is collapsed and is component 0 of the start index: row `c` of the table, clamped into range
    show gather_S8x1024x1024_S1024x2_S8x1024_0_12_n_n_12_1_811.start (ix2 b c) (Read.val_main_call0_v14 (F := Ideal)) 1
      + gather_S8x1024x1024_S1024x2_S8x1024_0_12_n_n_12_1_811.batchCoord (ix2 b c) 1
      + gather_S8x1024x1024_S1024x2_S8x1024_0_12_n_n_12_1_811.offCoord (ix2 b c) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S8x1024x1024_S1024x2_S8x1024_0_12_n_n_12_1_811.startIndexMap by decide)]
    have hsi : gather_S8x1024x1024_S1024x2_S8x1024_0_12_n_n_12_1_811.siIdx (ix2 b c)
        ⟨List.idxOf (1 : Fin 3) gather_S8x1024x1024_S1024x2_S8x1024_0_12_n_n_12_1_811.startIndexMap,
          List.idxOf_lt_length_iff.2 (by decide)⟩ = ix2 c (0 : Fin 2) := by
      funext e; refine Fin.ext ?_
      match e with
      | ⟨0, _⟩ => rfl
      | ⟨1, _⟩ => rfl
    rw [hsi, table_fst, counter_toInt_toNat _ c.isLt]
    show min c.val (1024 - 1) = c.val
    have := c.isLt
    omega
  | ⟨2, _⟩ =>
    -- axis 2 is collapsed and is component 1 of the start index: row `c` of the table, clamped into range
    show gather_S8x1024x1024_S1024x2_S8x1024_0_12_n_n_12_1_811.start (ix2 b c) (Read.val_main_call0_v14 (F := Ideal)) 2
      + gather_S8x1024x1024_S1024x2_S8x1024_0_12_n_n_12_1_811.batchCoord (ix2 b c) 2
      + gather_S8x1024x1024_S1024x2_S8x1024_0_12_n_n_12_1_811.offCoord (ix2 b c) 2 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gather_S8x1024x1024_S1024x2_S8x1024_0_12_n_n_12_1_811.startIndexMap by decide)]
    have hsi : gather_S8x1024x1024_S1024x2_S8x1024_0_12_n_n_12_1_811.siIdx (ix2 b c)
        ⟨List.idxOf (2 : Fin 3) gather_S8x1024x1024_S1024x2_S8x1024_0_12_n_n_12_1_811.startIndexMap,
          List.idxOf_lt_length_iff.2 (by decide)⟩ = ix2 c (1 : Fin 2) := by
      funext e; refine Fin.ext ?_
      match e with
      | ⟨0, _⟩ => rfl
      | ⟨1, _⟩ => rfl
    rw [hsi, table_snd, counter_toInt_toNat _ c.isLt]
    show min c.val (1024 - 1) = c.val
    have := c.isLt
    omega

end Cert.ReferenceIdeal.RefValue

end
-- ==== Proof.RefValue.lean ====
/-
  The reference program's result is the mean loss of the specification.

  The reference forms every batch's Gram matrix by one contraction over all 4096 positions, divides by the temperature,
  takes the softmax of every row with the row maximum subtracted, reads the diagonal, and averages minus the logarithm of
  the diagonal plus a small constant over the 8 · 1024 rows.
-/
import proofs.«427626_j27633819582907_3_alg».proof.Proof.Gen.ReferenceIdeal.Read
import proofs.«427626_j27633819582907_3_alg».proof.Proof.RefDiagonal
import proofs.«427626_j27633819582907_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The scaled Gram entry: the reference's contraction divided by the temperature, at (b, c, d), is
    (∑ₙ X[b,c,n] · X[b,d,n]) times the inverse temperature. -/
theorem scaled_gram (x0 : (⟨S8x1024x64x64, .f32⟩ : BufTy).Contents (Elt Ideal)) (b : Fin 8) (c d : Fin 1024) :
    Read.val_main_v3 (F := Ideal) x0 (ix3 b c d)
      = Cert.Decorr.gram (Read.val_main_v0 (F := Ideal) x0) b c d * Cert.Decorr.invT := by
  rw [Read.val_main_v3_apply, Read.val_main_v1_apply, Read.val_main_v2_apply, Read.val_main_cst_apply]
  simp only [Ideal.hostDivf_def, Ideal.ofBits_def]
  rw [Cert.Decorr.div_temperature]
  unfold Cert.Decorr.gram
  refine congrArg (· * Cert.Decorr.invT) (Finset.sum_congr rfl fun k _ => ?_)
  have hl : Read.lidx_main_v1 (ix3 b c d) k = ix3 b c k := by
    funext a; match a with | ⟨0, _⟩ => rfl | ⟨1, _⟩ => rfl | ⟨2, _⟩ => rfl
  have hr : Read.ridx_main_v1 (ix3 b c d) k = ix3 b d k := by
    funext a; match a with | ⟨0, _⟩ => rfl | ⟨1, _⟩ => rfl | ⟨2, _⟩ => rfl
  rw [hl, hr]

/-- The reduced index (b, c) with coordinate `k` put back on the last axis is (b, c, k). -/
theorem lift_last (h : S8x1024x1024.Reduces [2] S8x1024) (b : Fin 8) (c : Fin 1024) (k : Fin (S8x1024x1024.size 2)) :
    h.lift (ix2 b c) k = ix3 b c (⟨k.val, k.isLt⟩ : Fin 1024) := by
  funext a; apply Fin.ext
  match a with | ⟨0, _⟩ => rfl | ⟨1, _⟩ => rfl | ⟨2, _⟩ => rfl

/-- The reference's row maximum: the maximum from −∞ of the scaled Gram row, at (b, c), is the specification's. -/
theorem row_max (x0 : (⟨S8x1024x64x64, .f32⟩ : BufTy).Contents (Elt Ideal)) (b : Fin 8) (c : Fin 1024) :
    Read.val_main_v6 (F := Ideal) x0 (ix2 b c)
      = Cert.Decorr.rowMax (Cert.Decorr.gram (Read.val_main_v0 (F := Ideal) x0) b c) := by
  rw [Read.val_main_v6_apply, Read.val_main_v5_apply, Read.val_main_cst_1_apply]
  simp only [Ideal.maximumf_def, Ideal.ofBits_def]
  rw [Cert.Decorr.ofBits_neg_inf, max_eq_right bot_le]
  unfold Read.val_main_v4
  have h : S8x1024x1024.Reduces [2] S8x1024 := by decide
  refine (Host.reduce_eq_fold_single (α := Ideal .f32) FloatOps.maximumf (Read.val_main_v3 (F := Ideal) x0)
    (Read.val_main_cst_0 (F := Ideal)) reducesTo_S8x1024x1024_S8x1024_d2 h h_S_ (ix2 b c)).trans ?_
  rw [Read.val_main_cst_0_apply]
  simp only [Ideal.ofBits_def]
  rw [Cert.Decorr.ofBits_neg_inf]
  unfold Cert.Decorr.rowMax
  have hf : (Read.val_main_v3 (F := Ideal) x0 ∘ h.lift (ix2 b c))
      = fun d : Fin 1024 => Cert.Decorr.gram (Read.val_main_v0 (F := Ideal) x0) b c d * Cert.Decorr.invT :=
    funext fun d => by
      show Read.val_main_v3 (F := Ideal) x0 (h.lift (ix2 b c) d) = _
      rw [lift_last h b c d]
      exact scaled_gram x0 b c _
  exact congrArg (fun f => Finset.fold max (⊥ : EReal) f (Finset.univ : Finset (Fin 1024))) hf

/-- The softmax numerator: the exponential of the scaled Gram entry minus its row's maximum, at (b, c, d). -/
theorem exp_entry (x0 : (⟨S8x1024x64x64, .f32⟩ : BufTy).Contents (Elt Ideal)) (b : Fin 8) (c d : Fin 1024) :
    Read.val_main_v10 (F := Ideal) x0 (ix3 b c d)
      = Ideal.exp (Cert.Decorr.gram (Read.val_main_v0 (F := Ideal) x0) b c d * Cert.Decorr.invT
          - Cert.Decorr.rowMax (Cert.Decorr.gram (Read.val_main_v0 (F := Ideal) x0) b c)) := by
  rw [Read.val_main_v10_apply, Read.val_main_v9_apply, Read.val_main_v8_apply, Read.val_main_v7_apply]
  simp only [Ideal.hostUnary_exp_def, Ideal.subf_def]
  have hi : Read.idx_main_v7 (Read.idx_main_v8 (ix3 b c d)) = ix2 b c := by
    funext a; match a with | ⟨0, _⟩ => rfl | ⟨1, _⟩ => rfl
  rw [hi, scaled_gram, row_max]

/-- The softmax normaliser: the reference's row sum from zero, at (b, c), is the specification's. -/
theorem row_sum (x0 : (⟨S8x1024x64x64, .f32⟩ : BufTy).Contents (Elt Ideal)) (b : Fin 8) (c : Fin 1024) :
    Read.val_main_v11 (F := Ideal) x0 (ix2 b c)
      = Cert.Decorr.rowSum (Cert.Decorr.gram (Read.val_main_v0 (F := Ideal) x0) b c) := by
  rw [Read.val_main_v11_apply, Read.val_main_cst_2_apply]
  simp only [Ideal.ofBits_def]
  rw [Ideal.ofBits_zero_f32, zero_add]
  unfold Cert.Decorr.rowSum
  refine Finset.sum_congr rfl fun k _ => ?_
  have hi : Read.idx_main_v11 (ix2 b c) k = ix3 b c k := by
    funext a; match a with | ⟨0, _⟩ => rfl | ⟨1, _⟩ => rfl | ⟨2, _⟩ => rfl
  rw [hi, exp_entry]

/-- The softmax entry: numerator over normaliser, at (b, c, d). -/
theorem softmax_entry (x0 : (⟨S8x1024x64x64, .f32⟩ : BufTy).Contents (Elt Ideal)) (b : Fin 8) (c d : Fin 1024) :
    Read.val_main_v14 (F := Ideal) x0 (ix3 b c d)
      = Ideal.div (Ideal.exp (Cert.Decorr.gram (Read.val_main_v0 (F := Ideal) x0) b c d * Cert.Decorr.invT
          - Cert.Decorr.rowMax (Cert.Decorr.gram (Read.val_main_v0 (F := Ideal) x0) b c)))
          (Cert.Decorr.rowSum (Cert.Decorr.gram (Read.val_main_v0 (F := Ideal) x0) b c)) := by
  rw [Read.val_main_v14_apply, Read.val_main_v13_apply, Read.val_main_v12_apply]
  simp only [Ideal.hostDivf_def]
  have hi : Read.idx_main_v12 (Read.idx_main_v13 (ix3 b c d)) = ix2 b c := by
    funext a; match a with | ⟨0, _⟩ => rfl | ⟨1, _⟩ => rfl
  rw [hi, exp_entry, row_sum]

/-- The row loss: minus the logarithm of the diagonal softmax entry plus the small constant, at (b, c). -/
theorem row_loss (x0 : (⟨S8x1024x64x64, .f32⟩ : BufTy).Contents (Elt Ideal)) (b : Fin 8) (c : Fin 1024) :
    Read.val_main_v19 (F := Ideal) x0 (ix2 b c) = Cert.Decorr.loss (Read.val_main_v0 (F := Ideal) x0) b c := by
  rw [Read.val_main_v19_apply, Read.val_main_v18_apply, Read.val_main_v17_apply, Read.val_main_v16_apply,
    Read.val_main_cst_3_apply]
  unfold Read.val_main_v15
  rw [diagonal_gather (Read.val_main_v14 (F := Ideal) x0) b c, softmax_entry]
  simp only [Ideal.hostNegf_def, Ideal.negf_def, Ideal.hostUnary_log_def, Ideal.addf_def, Ideal.ofBits_def]
  rw [← Cert.Decorr.zero_sub_eq_neg]
  rfl

/-- The reference's scalar result is the specification's mean loss of the input read at [8, 1024, 4096]. -/
theorem ref_total (x0 : (⟨S8x1024x64x64, .f32⟩ : BufTy).Contents (Elt Ideal)) (i : S_.Idx) :
    Read.val_main_v21 (F := Ideal) x0 i = Cert.Decorr.total (Read.val_main_v0 (F := Ideal) x0) := by
  rw [Read.val_main_v21_apply, Read.val_main_v20_apply, Read.val_main_cst_4_apply, Read.val_main_cst_5_apply]
  simp only [Ideal.hostDivf_def, Ideal.ofBits_def]
  rw [Ideal.ofBits_zero_f32, sum_idx2]
  unfold Cert.Decorr.total Cert.Decorr.count
  refine congrArg (fun s => Ideal.div (0 + s) _) ?_
  exact Finset.sum_congr rfl fun b _ => Finset.sum_congr rfl fun c _ => row_loss x0 b c

end Cert.ReferenceIdeal.RefValue

end
-- ==== Proof.lean ====
/-
  The kernel and its reference compute the same mean loss.

  Both programs read the input as an array `X` of shape [8, 1024, 4096].  The reference forms each batch's Gram matrix
  `∑ₙ X[b,c,n] · X[b,d,n]` in one contraction over the 4096 positions, divides it by the temperature (the binary32 number
  nearest to 0.2), takes the softmax of every row with the row maximum subtracted, reads the diagonal, and averages
  `-log (diagonal + ε)` over the 8 · 1024 rows.  The kernel walks the positions in four chunks of 1024 per batch, adding each
  chunk's Gram matrix into a running matrix and each chunk's row sums of squares into running energies that start at zero;
  at the last chunk it multiplies by the reciprocal of the temperature, forms the same softmax normaliser, uses the
  energies where the reference reads the matrix's diagonal, and writes `0 - log (…)`; the lines after it average.

  Over the extended reals the two agree with no condition on the input: addition there is commutative and associative, so the
  four chunks regroup into the one contraction and the energies are the diagonal of the Gram matrix; dividing by a nonzero
  real is multiplying by its reciprocal; and subtracting from zero is negating.  The reciprocal is exact because the
  kernel's scale is read as the reciprocal of the reference's own temperature word, which is what its source computes.
  The three frame claims are the generated frames and the reference's run; the idealization's three rewrites (a widening
  of a narrowed value, and the scale read as that reciprocal at its two uses) are the rules' own statements.
-/
import proofs.«427626_j27633819582907_3_alg».proof.Defs
import proofs.«427626_j27633819582907_3_alg».proof.Proof.Gen.Kernel
import proofs.«427626_j27633819582907_3_alg».proof.Proof.Gen.Kernel.Frame
import proofs.«427626_j27633819582907_3_alg».proof.Proof.Gen.KernelIdeal
import proofs.«427626_j27633819582907_3_alg».proof.Proof.Gen.KernelIdeal.Frame
import proofs.«427626_j27633819582907_3_alg».proof.Proof.Gen.ReferenceIdeal
import proofs.«427626_j27633819582907_3_alg».proof.Proof.Gen.ReferenceIdeal.Run
import proofs.«427626_j27633819582907_3_alg».proof.Proof.Gen.ReferenceIdeal.Read
import proofs.«427626_j27633819582907_3_alg».proof.Proof.Gen.Pre_finite_inputs
import proofs.«427626_j27633819582907_3_alg».proof.Proof.KernelArray
import proofs.«427626_j27633819582907_3_alg».proof.Proof.RefValue
import Idealize.ShloMosaic.Adequacy
import Idealize.ShloMosaic.Init

noncomputable section

namespace Cert.Proof

open Idealize.ShloMosaic Idealize.SL.Sem

/-- The word-level kernel terminates without a fault and leaves its argument unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's three rewrites: widening a narrowed value gives the value back; and the scale, at both of its
    uses, denotes the exact reciprocal of the temperature. -/
theorem preserves : Cert.preserves_Kernel_KernelIdeal :=
  ⟨IdealRules.truncf_extf.statement Cert.KernelIdeal.S1024x1024 .f32 .bf16,
    IdealRules.named_const.statement Cert.KernelIdeal.κ "inv_temperature" .f32 0x40A00000#32 ((67108864 / 13421773 : ℝ) : EReal) rfl,
    IdealRules.named_const.statement Cert.KernelIdeal.κ "inv_temperature" .f32 0x40A00000#32 ((67108864 / 13421773 : ℝ) : EReal) rfl⟩

/-- Both idealized programs end with their scalar result at the mean loss of the argument reshaped to [8, 1024, 4096]. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, hagree c]
  funext i
  rw [Cert.ReferenceIdeal.RefValue.ref_total]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
